-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts]

def fn {F : FTy → Type} [FloatOps F] (main_arg0 : FVec F S16x1x1024x1024 .f32) (main_arg1 : FVec F S16x1x1024x1024 .f32) (main_arg2 : IVec S16x1x1024x1024 32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : FVec F S16x1x1024x1024 .f32 := Host.absf main_arg1
  let main_cst_0 : FVec F S_ .f32 := constant S_ .f32 0x7F800000#32
  let main_v5 : FVec F S16x1x1024x1024 .f32 := broadcastInDim S16x1x1024x1024 ![] bcast_S_S16x1x1024x1024 main_cst_0
  let main_v6 : IVec S16x1x1024x1024 1 := cmpf .olt main_v4 main_v5
  let main_c_1 : IVec S_ 1 := constantI S_ 1 1#1
  let main_v7 : IVec S_ 1 := (fun x v => Host.reduce IntOp.andi x v reducesTo_S16x1x1024x1024_S_d0_1_2_3 h_S_) main_v6 main_c_1
  let main_v8 : IVec S_ 1 := andi main_v3 main_v7
  main_v8
-- ==== Kernel.lean ====
abbrev S16x1x1024x1024 : Shape := ⟨4, ![16, 1, 1024, 1024]⟩
abbrev S16x1024x1024 : Shape := ⟨3, ![16, 1024, 1024]⟩
abbrev S16x8x128 : Shape := ⟨3, ![16, 8, 128]⟩
abbrev S1x1024x1024 : Shape := ⟨3, ![1, 1024, 1024]⟩
abbrev S1x8x128 : Shape := ⟨3, ![1, 8, 128]⟩
abbrev S1024x1024 : Shape := ⟨2, ![1024, 1024]⟩
abbrev S1 : Shape := ⟨1, ![1]⟩
abbrev S1x1x1 : Shape := ⟨3, ![1, 1, 1]⟩
abbrev S16x1x1 : Shape := ⟨3, ![16, 1, 1]⟩
abbrev S16 : Shape := ⟨1, ![16]⟩
abbrev S_ : Shape := ⟨0, ![]⟩

abbrev nBuf : Space → Nat
  | .hbm => 18
  | .vmem => 8
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S16x1x1024x1024, .i32⟩
  | .hbm, ⟨3, _⟩ => ⟨S16x1024x1024, .f32⟩
  | .hbm, ⟨4, _⟩ => ⟨S16x1024x1024, .f32⟩
  | .hbm, ⟨5, _⟩ => ⟨S16x1024x1024, .i32⟩
  | .hbm, ⟨6, _⟩ => ⟨S16x8x128, .f32⟩
  | .hbm, ⟨7, _⟩ => ⟨S16x1x1, .f32⟩
  | .hbm, ⟨8, _⟩ => ⟨S16, .f32⟩
  | .hbm, ⟨9, _⟩ => ⟨S_, .f32⟩
  | .hbm, ⟨10, _⟩ => ⟨S_, .f32⟩
  | .hbm, ⟨11, _⟩ => ⟨S16x1x1, .f32⟩
  | .hbm, ⟨12, _⟩ => ⟨S16, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .i32⟩
  | .local _ .vmem, ⟨5, _⟩ => ⟨S1x1024x1024, .i32⟩
  | .local _ .vmem, ⟨6, _⟩ => ⟨S1x8x128, .f32⟩
  | .local _ .vmem, ⟨7, _⟩ => ⟨S1x8x128, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x1x1024x1024_S16x1024x1024 : S16x1x1024x1024.ShapeCasts S16x1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  iota_S1x8x128_d1_w32 : S1x8x128.Iotas .tc 32 [1]
  inb_S1x8x128_S1x8x128_0_0_0 : ∀ a, (![0, 0, 0] : Fin 3 → Nat) a + S1x8x128.size a ≤ S1x8x128.size a
  h_S1x8x128 : 0 < S1x8x128.numel
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  slices_S16x8x128_S16x1x1_0_1_0 : S16x8x128.Slices ![0, 1, 0] S16x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x1024x1024.size a
  hwx0_2 : ∀ i : grid0.Coords, EltTy.bits .i32 = 32 ∨ (Rect.block (s := S16x1024x1024) S1x1024x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S16x8x128.size a
  hwx0_3 : ∀ i : grid0.Coords, EltTy.bits .f32 = 32 ∨ (Rect.block (s := S16x8x128) S1x8x128.size (cc0_transform_3 i) (hinb0_3 i)).WholeWords (EltTy.packing .f32)

variable [Facts₀]

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1x1024x1024 : Shape := ⟨4, ![16, 1, 1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S16x1x1024x1024, .i32⟩
  | .hbm, ⟨3, _⟩ => ⟨S_, .f32⟩
  | .hbm, ⟨4, _⟩ => ⟨S16x1x1024x1024, .f32⟩
  | .hbm, ⟨5, _⟩ => ⟨S16x1x1024x1024, .f32⟩
  | .hbm, ⟨6, _⟩ => ⟨S16x1x1024x1024, .f32⟩
  | .hbm, ⟨7, _⟩ => ⟨S16x1x1024x1024, .f32⟩
  | .hbm, ⟨8, _⟩ => ⟨S16x1x1024x1024, .f32⟩
  | .hbm, ⟨9, _⟩ => ⟨S16x1x1024x1024, .f32⟩
  | .hbm, ⟨10, _⟩ => ⟨S16x1x1024x1024, .f32⟩
  | .hbm, ⟨11, _⟩ => ⟨S16x1x1024x1024, .f32⟩
  | .hbm, ⟨12, _⟩ => ⟨S16x1x1024x1024, .f32⟩
  | .hbm, ⟨13, _⟩ => ⟨S16x1x1024x1024, .f32⟩
  | .hbm, ⟨14, _⟩ => ⟨S16x1x1024x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts₀]

class Facts : Prop extends Facts₀ where

variable [Facts]
-- ==== Proof.MaskedMean.lean ====
/-
  The masked mean of a pointwise loss, as one function of three arrays of shape [16, 1, 1024, 1024] on the
  extended reals, and the one law the two programs differ by.

  With `x` a logit, `t` a target and `w` an integer weight, the summand is
      loss x t · w,    loss x t = max x 0 − x·t + log (1 + exp (−|x|)),    |x| = max x (−x),
  the total is its sum over every index, the count the sum of the weights, and the result
      (0 + total) / max (0 + count) 1.
  The zero and the one are kept as the values the two bit patterns denote: both programs write the same patterns
  in the same places, so they are never evaluated here.

  One program sums all four axes at once. The other sums each of the sixteen [1, 1024, 1024] slabs by itself and
  then adds the sixteen partial sums. Addition on the extended reals is commutative and associative (also at the
  infinities), so the two agree: `sum_slabs`, by the bijection between an index (b, 0, h, w) of the whole array and
  the pair of the slab number b and the index (0, h, w) inside the slab. No finiteness is used.
-/
import Idealize.ShloMosaic.PureOps.Ideal.Laws
import Idealize.ShloMosaic.Lib.ValueIdx

noncomputable section

open scoped BigOperators

namespace Cert.MaskedMean

open Idealize.ShloMosaic Idealize.ShloMosaic.ValueIdx

/-- The whole arrays' shape, one slab's, and the shape of the sixteen partial sums. -/
abbrev Full : Shape := ⟨4, ![16, 1, 1024, 1024]⟩
abbrev Slab : Shape := ⟨3, ![1, 1024, 1024]⟩
abbrev Batch : Shape := ⟨1, ![16]⟩

/-- What the zero pattern and the pattern of 1.0 denote. -/
abbrev zero : EReal := Ideal.ofBits .f32 0x00000000#32
abbrev one : EReal := Ideal.ofBits .f32 0x3F800000#32

/-- The pointwise loss: max x 0 − x·t + log (1 + exp (−|x|)). -/
def loss (x t : EReal) : EReal := max x zero - x * t + Ideal.log1p (Ideal.exp (-(max x (-x))))

/-- An integer weight as an extended real: the integer itself, read signed. -/
def weight (w : BitVec 32) : EReal := ((w.toInt : ℝ) : EReal)

/-- The summand of the total at one index. -/
def term (x t : EReal) (w : BitVec 32) : EReal := loss x t * weight w

/-- Index (0, h, w) of slab b is index (b, 0, h, w) of the whole array. -/
def slabIdx (b : Fin 16) (y : Slab.Idx) : Full.Idx := ix4 b (0 : Fin 1) (y 1) (y 2)

/-- The total and the count over the whole array. -/
def total (X T : Full.Idx → EReal) (M : Full.Idx → BitVec 32) : EReal := ∑ j : Full.Idx, term (X j) (T j) (M j)
def count (M : Full.Idx → BitVec 32) : EReal := ∑ j : Full.Idx, weight (M j)

/-- The total and the count over slab b alone. -/
def slabTotal (X T : Full.Idx → EReal) (M : Full.Idx → BitVec 32) (b : Fin 16) : EReal :=
  ∑ y : Slab.Idx, term (X (slabIdx b y)) (T (slabIdx b y)) (M (slabIdx b y))
def slabCount (M : Full.Idx → BitVec 32) (b : Fin 16) : EReal := ∑ y : Slab.Idx, weight (M (slabIdx b y))

/-- The mean from a total and a count: (0 + total) / max (0 + count) 1. -/
def mean (tot cnt : EReal) : EReal := Ideal.div (zero + tot) (max (zero + cnt) one)

/-- The result both programs compute. -/
def result (X T : Full.Idx → EReal) (M : Full.Idx → BitVec 32) : EReal := mean (total X T M) (count M)

/-- A slab number and an index inside a slab, against an index of the whole array. -/
def slabEquiv : Batch.Idx × Slab.Idx ≃ Full.Idx where
  toFun p := slabIdx (p.1 0) p.2
  invFun j := (ix1 (j 0), ix3 (0 : Fin 1) (j 2) (j 3))
  left_inv p := by
    obtain ⟨b, y⟩ := p
    refine Prod.ext ?_ ?_
    · exact (eq_ix1 b).symm
    · show ix3 (0 : Fin 1) (y 1) (y 2) = y
      funext a
      match a with
      | ⟨0, _⟩ =>
        apply Fin.ext
        show (0 : ℕ) = (y 0).val
        have h := (y 0).isLt
        simp at h
        omega
      | ⟨1, _⟩ => rfl
      | ⟨2, _⟩ => rfl
  right_inv j := by
    show ix4 (j 0) (0 : Fin 1) (j 2) (j 3) = j
    funext a
    match a with
    | ⟨0, _⟩ => rfl
    | ⟨1, _⟩ =>
      apply Fin.ext
      show (0 : ℕ) = (j 1).val
      have h := (j 1).isLt
      simp at h
      omega
    | ⟨2, _⟩ => rfl
    | ⟨3, _⟩ => rfl

/-- Summing slab by slab and then over the slabs is summing over the whole array. -/
theorem sum_slabs {β : Type*} [AddCommMonoid β] (f : Full.Idx → β) :
    ∑ b : Batch.Idx, ∑ y : Slab.Idx, f (slabIdx (b 0) y) = ∑ j : Full.Idx, f j := by
  rw [← Equiv.sum_comp slabEquiv f, Fintype.sum_prod_type]
  rfl

/-- The sixteen slab totals add up to the total, and the sixteen slab counts to the count. -/
theorem sum_slabTotal (X T : Full.Idx → EReal) (M : Full.Idx → BitVec 32) :
    ∑ b : Batch.Idx, slabTotal X T M (b 0) = total X T M :=
  sum_slabs fun j => term (X j) (T j) (M j)
theorem sum_slabCount (M : Full.Idx → BitVec 32) : ∑ b : Batch.Idx, slabCount M (b 0) = count M :=
  sum_slabs fun j => weight (M j)

end Cert.MaskedMean

end
-- ==== Proof.RefValue.lean ====
/-
  The reference program's result is the masked mean.

  Its run ends with the result buffer at the composed term of its nineteen host operations. Read at the one index
  of the rank-0 result: each of the two sums over all four axes is the initial value plus the sum over every index
  of the operand, and the operand at an index is the summand of `MaskedMean` there, operation by operation — the
  host's absolute value, negation, exponential and log (1 + ·) are the extended reals' own.
-/
import proofs.«412234_j9723805958292_3_alg».proof.Proof.Gen.ReferenceIdeal.Run
import proofs.«412234_j9723805958292_3_alg».proof.Proof.MaskedMean
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.MaskedMean

/-- A host sum over all four axes into the rank-0 result, from the zero pattern: zero plus the sum over every index. -/
theorem reduce_total (y : FVec Ideal S16x1x1024x1024 .f32) (i : S_.Idx) :
    Host.reduceAdd y (constant S_ .f32 0x00000000#32) reducesTo_S16x1x1024x1024_S_d0_1_2_3 h_S_ i
      = zero + ∑ j : Full.Idx, y j := by
  simp only [Host.reduceAdd, Ideal.hostReduceAdd_def]
  exact Ideal.hostReduceAdd_total reducesTo_S16x1x1024x1024_S_d0_1_2_3 (fun b => b.elim0) y _ i

/-- The run's term is the masked mean of the three argument arrays. -/
theorem result_eq (X T : FVec Ideal S16x1x1024x1024 .f32) (M : IVec S16x1x1024x1024 32) :
    Host.divf (Host.reduceAdd (mulf (addf (subf (maximumf X (broadcastInDim S16x1x1024x1024 ![] bcast_S_S16x1x1024x1024 (constant S_ .f32 0x00000000#32))) (mulf X T)) (Host.log1p (Host.exp (Host.negf (Host.absf X))))) (sitofp .f32 M)) (constant S_ .f32 0x00000000#32) reducesTo_S16x1x1024x1024_S_d0_1_2_3 h_S_) (maximumf (Host.reduceAdd (sitofp .f32 M) (constant S_ .f32 0x00000000#32) reducesTo_S16x1x1024x1024_S_d0_1_2_3 h_S_) (constant S_ .f32 0x3F800000#32))
      = fun _ => result X T M := by
  funext i
  rw [show ∀ A B : FVec Ideal S_ .f32, Host.divf A B i = Ideal.div (A i) (B i) from fun _ _ => rfl,
    maximumf_apply, reduce_total, reduce_total]
  rfl

end Cert.ReferenceIdeal.RefValue

end
-- ==== Proof.Payload.lean ====
/-
  What the kernel body stores, at an index of its [1, 8, 128] output block.

  The body loads one [1, 1024, 1024] slab of each input, views it as [1024, 1024], computes the pointwise chain
      (max x 0 − x·t + log (1 + exp (0 − |x|))) · w,
  sums it over the whole slab, sums the weights w over the whole slab, and stores a block whose row 0 holds the first
  sum on every lane, row 1 the second, and every other row zero (two selects on the row number).

  The chain is pointwise, so it commutes with the change of view and the two views cancel; at an index it is the
  summand of `MaskedMean` (0 − a = −a on the extended reals); a sum into the one-element shape [1] is the sum over
  every index of the slab; and the row number of an index is read off the iota along axis 1.
-/
import proofs.«412234_j9723805958292_3_alg».proof.Proof.Gen.KernelIdeal.Skeleton
import proofs.«412234_j9723805958292_3_alg».proof.Proof.MaskedMean
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.TcCoe Idealize.SL.Sem
open Idealize.ShloMosaic.ValueIdx Cert.MaskedMean

/-- The body's pointwise chain, on vectors of any shape. -/
def chain {s : Shape} (a b : FVec Ideal s .f32) (w : IVec s 32) : FVec Ideal s .f32 :=
  mulf (addf (subf (maximumf a (broadcast s (Scalar.ofBits .f32 0x00000000#32))) (mulf a b))
    (log1p (exp (subf (broadcast s (Scalar.ofBits .f32 0x00000000#32)) (absf a))))) (sitofp .f32 w)

/-- At an index it is the summand of the masked mean: 0 − |x| is −|x|. -/
theorem chain_apply {s : Shape} (a b : FVec Ideal s .f32) (w : IVec s 32) (i : s.Idx) :
    chain a b w i = term (a i) (b i) (w i) := by
  show (max (a i) zero - a i * b i + Ideal.log1p (Ideal.exp (Ideal.ofBits .f32 0x00000000#32 - max (a i) (-(a i))))) * weight (w i) = _
  rw [Ideal.ofBits_zero_f32, zero_sub]
  rfl

/-- A pointwise chain of re-viewed vectors is the re-viewed chain. -/
theorem chain_shapeCast {s t : Shape} (a b : FVec Ideal s .f32) (w : IVec s 32) (h : s.ShapeCasts t) :
    chain (shapeCast t a h) (shapeCast t b h) (shapeCast t w h) = shapeCast t (chain a b w) h := rfl

/-- The row pattern of the stored block: row 0 holds `a`, row 1 holds `b`, every other row `z`. -/
def rows (a b z : EReal) (r : Nat) : EReal := if r = 0 then a else if r = 1 then b else z

theorem rows_zero (a b z : EReal) : rows a b z 0 = a := if_pos rfl
theorem rows_one (a b z : EReal) : rows a b z 1 = b := by
  unfold rows
  rw [if_neg (by decide), if_pos rfl]

/-- The two selects on "row = 0" and "row = 1", for each of the eight rows. -/
theorem select_rows (a b z : EReal) (r : Fin 8) :
    Scalar.select (IntOp.cmpi .eq (BitVec.ofNat 32 r.val) 0#32) a
      (Scalar.select (IntOp.cmpi .eq (BitVec.ofNat 32 r.val) 1#32) b z) = rows a b z r.val := by
  match r with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The chain the body sums, in the slab's own view, is the summand at each index of the slab. -/
theorem terms_eq (x0 x1 : Vec Ideal S1x1024x1024 .f32) (x2 : Vec Ideal S1x1024x1024 .i32) :
    shapeCast S1x1024x1024 (chain (shapeCast S1024x1024 x0 shapeCasts_S1x1024x1024_S1024x1024)
        (shapeCast S1024x1024 x1 shapeCasts_S1x1024x1024_S1024x1024)
        (shapeCast S1024x1024 x2 shapeCasts_S1x1024x1024_S1024x1024)) shapeCasts_S1024x1024_S1x1024x1024
      = fun i => term (x0 i) (x1 i) (x2 i) := by
  rw [chain_shapeCast, shapeCast_shapeCast]
  funext i
  exact chain_apply x0 x1 x2 i

/-- The converted weights the body sums, in the slab's own view, are the weights at each index of the slab. -/
theorem weights_eq (x2 : Vec Ideal S1x1024x1024 .i32) :
    shapeCast S1x1024x1024 (sitofp (F := Ideal) .f32 (shapeCast S1024x1024 x2 shapeCasts_S1x1024x1024_S1024x1024))
        shapeCasts_S1024x1024_S1x1024x1024
      = fun i => weight (x2 i) := by
  rw [show sitofp (F := Ideal) .f32 (shapeCast S1024x1024 x2 shapeCasts_S1x1024x1024_S1024x1024)
      = shapeCast S1024x1024 (sitofp (F := Ideal) .f32 x2) shapeCasts_S1x1024x1024_S1024x1024 from rfl, shapeCast_shapeCast]
  rfl

/-- The one-element shape [1] has unit extents. -/
theorem S1_unit : ∀ b : Fin S1.rank, S1.size b = 1 := fun b => by
  match b with
  | ⟨0, _⟩ => rfl

/-- An integer comparison of vectors, read at an index. -/
theorem cmpi_at {s : Shape} {w : Nat} (p : CmpIPredicate) (x y : IVec s w) (i : s.Idx) :
    cmpi p x y i = IntOp.cmpi p (x i) (y i) := rfl

/-- A sum over the slab into the one-element shape [1], viewed as [1, 1, 1] and read at its one position, is the sum
    over every index of the slab. -/
theorem extract_total (v : FVec Ideal S1x1024x1024 .f32) :
    extractAt ![0, 0, 0] (shapeCast S1x1x1 (multiReduction .add [1, 2] S1 v 0x00000000#32 reduces_S1x1024x1024_S1 (.inl rfl) rfl)
        shapeCasts_S1_S1x1x1) inpos_S1x1x1_p0_0_0
      = ∑ i : S1x1024x1024.Idx, v i := by
  unfold extractAt shapeCast
  exact Ideal.multiReduction_add_total v _ reduces_S1x1024x1024_S1 S1_unit _ _ _

/-- The stored block's two selects on the row number, with the two sums as given values: at an index, the row pattern. -/
theorem packed_at (A B : EReal) (j : S1x8x128.Idx) :
    select (cmpi .eq (iota .tc S1x8x128 32 [1] iota_S1x8x128_d1_w32) (broadcast S1x8x128 0#32))
      (broadcast S1x8x128 (A : Ideal .f32))
      (select (cmpi .eq (iota .tc S1x8x128 32 [1] iota_S1x8x128_d1_w32) (broadcast S1x8x128 1#32))
        (broadcast S1x8x128 (B : Ideal .f32))
        (broadcast S1x8x128 (Scalar.ofBits (F := Ideal) .f32 0x00000000#32))) j = rows A B zero (j 1).val := by
  show Scalar.select (IntOp.cmpi .eq (iota .tc S1x8x128 32 [1] iota_S1x8x128_d1_w32 j) 0#32) A
      (Scalar.select (IntOp.cmpi .eq (iota .tc S1x8x128 32 [1] iota_S1x8x128_d1_w32 j) 1#32) B zero) = _
  rw [iota_single_apply]
  exact select_rows A B zero (j 1)

/-- THE STORED BLOCK at an index: the slab's total on row 0, the slab's count on row 1, zero elsewhere. -/
theorem pay_apply (x0 x1 : Vec Ideal S1x1024x1024 .f32) (x2 : Vec Ideal S1x1024x1024 .i32) (j : S1x8x128.Idx) :
    k0_pay1 (F := Ideal) x0 x1 x2 j
      = rows (∑ i : S1x1024x1024.Idx, term (x0 i) (x1 i) (x2 i)) (∑ i : S1x1024x1024.Idx, weight (x2 i)) zero (j 1).val := by
  show select (cmpi .eq (iota .tc S1x8x128 32 [1] iota_S1x8x128_d1_w32) (broadcast S1x8x128 0#32))
      (broadcast S1x8x128 (extractAt ![0, 0, 0] (shapeCast S1x1x1 (multiReduction (F := Ideal) .add [1, 2] S1
        (shapeCast S1x1024x1024 (chain (shapeCast S1024x1024 x0 shapeCasts_S1x1024x1024_S1024x1024)
          (shapeCast S1024x1024 x1 shapeCasts_S1x1024x1024_S1024x1024)
          (shapeCast S1024x1024 x2 shapeCasts_S1x1024x1024_S1024x1024)) shapeCasts_S1024x1024_S1x1024x1024)
        0x00000000#32 reduces_S1x1024x1024_S1 (.inl rfl) rfl) shapeCasts_S1_S1x1x1) inpos_S1x1x1_p0_0_0))
      (select (cmpi .eq (iota .tc S1x8x128 32 [1] iota_S1x8x128_d1_w32) (broadcast S1x8x128 1#32))
        (broadcast S1x8x128 (extractAt ![0, 0, 0] (shapeCast S1x1x1 (multiReduction (F := Ideal) .add [1, 2] S1
          (shapeCast S1x1024x1024 (sitofp (F := Ideal) .f32 (shapeCast S1024x1024 x2 shapeCasts_S1x1024x1024_S1024x1024))
            shapeCasts_S1024x1024_S1x1024x1024)
          0x00000000#32 reduces_S1x1024x1024_S1 (.inl rfl) rfl) shapeCasts_S1_S1x1x1) inpos_S1x1x1_p0_0_0))
        (broadcast S1x8x128 (Scalar.ofBits (F := Ideal) .f32 0x00000000#32))) j = _
  rw [terms_eq, weights_eq, extract_total, extract_total]
  exact packed_at _ _ j

end Cert.KernelIdeal.Payload

end
-- ==== Proof.KernelValue.lean ====
/-
  The idealized kernel's result is the masked mean.

  The program reshapes each [16, 1, 1024, 1024] argument to [16, 1024, 1024], runs one pipelined region over a grid of
  sixteen points, and finishes with eleven host operations. At point t the region fetches slab t of each reshaped
  argument — index (0, h, w) of the block is index (t, h, w) of the reshaped array, which is index (t, 0, h, w) of
  the argument — and writes back block t of a [16, 8, 128] array: row 0 the slab's total, row 1 the slab's count,
  the other rows zero, on every lane. The sixteen blocks tile that array, so after the region it holds, at (b, r, l),
  the row pattern of slab b. The host operations then take column (·, 0, 0) and column (·, 1, 0), add each up from
  zero, and divide the first sum by the maximum of the second and one: the sixteen slab totals add up to the total,
  the sixteen slab counts to the count (`MaskedMean.sum_slabs`), which is the masked mean.
-/
import proofs.«412234_j9723805958292_3_alg».proof.Proof.Gen.KernelIdeal.Frame
import proofs.«412234_j9723805958292_3_alg».proof.Proof.Payload
import proofs.«412234_j9723805958292_3_alg».proof.Proof.MaskedMean
import Idealize.ShloMosaic.PureOps.Ideal.Laws
import Idealize.ShloMosaic.Lib.ValueIdx
import Idealize.ShloMosaic.Lib.Pipeline.Value
import Idealize.ShloMosaic.Lib.StableHlo.Run

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Cert.MaskedMean Cert.KernelIdeal.Payload
open Idealize.ShloMosaic.Pipeline (Dat Cfg Window)

variable (m : (ℓ : Loc nD τ sig) → Buf (Elt Ideal) ℓ) (ρ : Dev nD → PrngReg)

/-- The three argument arrays on core `c`, as launched. -/
abbrev argX (c : Dev nD) : Full.Idx → EReal := m ((c : Thread nD τ).loc main_arg0)
abbrev argT (c : Dev nD) : Full.Idx → EReal := m ((c : Thread nD τ).loc main_arg1)
abbrev argM (c : Dev nD) : Full.Idx → BitVec 32 := m ((c : Thread nD τ).loc main_arg2)

/-- A grid point is a slab number. -/
def pt (t : Fin cfg0.N) : Fin 16 := ⟨t.val, Nat.lt_of_lt_of_eq t.isLt N_0⟩

/-! ## The reshaped arguments -/

/-- Index (b, h, w) of a reshaped argument is index (b, 0, h, w) of the argument: the same row-major position. -/
theorem reshape_at {α : Type} (x : Full.Idx → α) (b : Fin 16) (p q : Fin 1024) :
    shapeCast S16x1024x1024 x shapeCasts_S16x1x1024x1024_S16x1024x1024 (ix3 b p q) = x (ix4 b (0 : Fin 1) p q) := by
  refine shapeCast_apply x _ (ix3 b p q) (ix4 b (0 : Fin 1) p q) ?_
  rw [Shape.rowMajor_val_four, Shape.rowMajor_val_three]
  show ((b.val * 1 + 0) * 1024 + p.val) * 1024 + q.val = (b.val * 1024 + p.val) * 1024 + q.val
  omega

/-- What the region finds in its three input arrays: the reshaped arguments. -/
theorem V_v0 (c : Dev nD) : (V m c main_v0 : S16x1024x1024.Idx → EReal)
    = shapeCast S16x1024x1024 (argX m c) shapeCasts_S16x1x1024x1024_S16x1024x1024 := by
  show StableHlo.after hostOps0 (fun b => m (c, b)) (Proc.devRef .tc main_v0) = _
  after_results
  rfl
theorem V_v1 (c : Dev nD) : (V m c main_v1 : S16x1024x1024.Idx → EReal)
    = shapeCast S16x1024x1024 (argT m c) shapeCasts_S16x1x1024x1024_S16x1024x1024 := by
  show StableHlo.after hostOps0 (fun b => m (c, b)) (Proc.devRef .tc main_v1) = _
  after_results
  rfl
theorem V_v2 (c : Dev nD) : (V m c main_v2 : S16x1024x1024.Idx → BitVec 32)
    = shapeCast S16x1024x1024 (argM m c) shapeCasts_S16x1x1024x1024_S16x1024x1024 := by
  show StableHlo.after hostOps0 (fun b => m (c, b)) (Proc.devRef .tc main_v2) = _
  after_results
  rfl

/-! ## The blocks -/

theorem hz : (![0, 0, 0] : Fin 3 → Nat) = fun _ => 0 := funext fun a => by fin_cases a <;> rfl

/-- The printed index maps, decided over the grid: every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Element (0, h, w) of input block t sits at (t, h, w) of its array. -/
theorem emb0 (t : Fin cfg0.N) (y : S1x1024x1024.Idx) :
    (((cfg0.win 0).blk t).view.emb y : S16x1024x1024.Idx) = ix3 (pt t) (y 1) (y 2) := by
  obtain ⟨e0, e1, e2, -⟩ := idx_facts t
  funext a; apply Fin.ext
  match a with
  | ⟨0, _⟩ =>
    show win0_0.index t (0 : Fin 3) * 1 + 1 * (y 0).val = t.val
    have h := (y 0).isLt
    simp at h
    omega
  | ⟨1, _⟩ => show win0_0.index t (1 : Fin 3) * 1024 + 1 * (y 1).val = (y 1).val; omega
  | ⟨2, _⟩ => show win0_0.index t (2 : Fin 3) * 1024 + 1 * (y 2).val = (y 2).val; omega
theorem emb1 (t : Fin cfg0.N) (y : S1x1024x1024.Idx) :
    (((cfg0.win 1).blk t).view.emb y : S16x1024x1024.Idx) = ix3 (pt t) (y 1) (y 2) := by
  obtain ⟨-, -, -, e0, e1, e2, -⟩ := idx_facts t
  funext a; apply Fin.ext
  match a with
  | ⟨0, _⟩ =>
    show win0_1.index t (0 : Fin 3) * 1 + 1 * (y 0).val = t.val
    have h := (y 0).isLt
    simp at h
    omega
  | ⟨1, _⟩ => show win0_1.index t (1 : Fin 3) * 1024 + 1 * (y 1).val = (y 1).val; omega
  | ⟨2, _⟩ => show win0_1.index t (2 : Fin 3) * 1024 + 1 * (y 2).val = (y 2).val; omega
theorem emb2 (t : Fin cfg0.N) (y : S1x1024x1024.Idx) :
    (((cfg0.win 2).blk t).view.emb y : S16x1024x1024.Idx) = ix3 (pt t) (y 1) (y 2) := by
  obtain ⟨-, -, -, -, -, -, e0, e1, e2, -⟩ := idx_facts t
  funext a; apply Fin.ext
  match a with
  | ⟨0, _⟩ =>
    show win0_2.index t (0 : Fin 3) * 1 + 1 * (y 0).val = t.val
    have h := (y 0).isLt
    simp at h
    omega
  | ⟨1, _⟩ => show win0_2.index t (1 : Fin 3) * 1024 + 1 * (y 1).val = (y 1).val; omega
  | ⟨2, _⟩ => show win0_2.index t (2 : Fin 3) * 1024 + 1 * (y 2).val = (y 2).val; omega
/-- Element (0, r, l) of output block t sits at (t, r, l) of the output array. -/
theorem emb3 (t : Fin cfg0.N) (j : S1x8x128.Idx) :
    (((cfg0.win 3).blk t).view.emb j : S16x8x128.Idx) = ix3 (pt t) (j 1) (j 2) := by
  obtain ⟨-, -, -, -, -, -, -, -, -, e0, e1, e2⟩ := idx_facts t
  funext a; apply Fin.ext
  match a with
  | ⟨0, _⟩ =>
    show win0_3.index t (0 : Fin 3) * 1 + 1 * (j 0).val = t.val
    have h := (j 0).isLt
    simp at h
    omega
  | ⟨1, _⟩ => show win0_3.index t (1 : Fin 3) * 8 + 1 * (j 1).val = (j 1).val; omega
  | ⟨2, _⟩ => show win0_3.index t (2 : Fin 3) * 128 + 1 * (j 2).val = (j 2).val; omega

/-- Input block t of each window, element by element: slab t of the argument. -/
theorem blk0 (c : Dev nD) (t : Fin cfg0.N) (y : S1x1024x1024.Idx) :
    iblk m c 0 t y = argX m c (slabIdx (pt t) y) := by
  show V m c main_v0 (((cfg0.win 0).blk t).view.emb y) = _
  rw [emb0 t y]
  exact (congrFun (V_v0 m c) (ix3 (pt t) (y 1) (y 2))).trans (reshape_at (argX m c) (pt t) (y 1) (y 2))
theorem blk1 (c : Dev nD) (t : Fin cfg0.N) (y : S1x1024x1024.Idx) :
    iblk m c 1 t y = argT m c (slabIdx (pt t) y) := by
  show V m c main_v1 (((cfg0.win 1).blk t).view.emb y) = _
  rw [emb1 t y]
  exact (congrFun (V_v1 m c) (ix3 (pt t) (y 1) (y 2))).trans (reshape_at (argT m c) (pt t) (y 1) (y 2))
theorem blk2 (c : Dev nD) (t : Fin cfg0.N) (y : S1x1024x1024.Idx) :
    iblk m c 2 t y = argM m c (slabIdx (pt t) y) := by
  show V m c main_v2 (((cfg0.win 2).blk t).view.emb y) = _
  rw [emb2 t y]
  exact (congrFun (V_v2 m c) (ix3 (pt t) (y 1) (y 2))).trans (reshape_at (argM m c) (pt t) (y 1) (y 2))

/-! ## The output array after the region -/

/-- The [16, 8, 128] array the region leaves: at (b, r, l), slab b's total on row 0, its count on row 1, zero elsewhere. -/
def packed (X T : Full.Idx → EReal) (M : Full.Idx → BitVec 32) : S16x8x128.Idx → EReal :=
  fun i => rows (slabTotal X T M (i 0)) (slabCount M (i 0)) zero (i 1).val

/-- The body's stored block at point t, at an index: the row pattern of slab t. -/
theorem pay_at_point (c : Dev nD) (t : Fin cfg0.N) (j : S1x8x128.Idx) :
    k0_pay1 (F := Ideal) (iblk m c 0 t) (iblk m c 1 t) (iblk m c 2 t) j
      = rows (slabTotal (argX m c) (argT m c) (argM m c) (pt t)) (slabCount (argM m c) (pt t)) zero (j 1).val := by
  refine (pay_apply (iblk m c 0 t) (iblk m c 1 t) (iblk m c 2 t) j).trans ?_
  have h1 : (∑ i : S1x1024x1024.Idx, term (iblk m c 0 t i) (iblk m c 1 t i) (iblk m c 2 t i))
      = slabTotal (argX m c) (argT m c) (argM m c) (pt t) :=
    Finset.sum_congr rfl fun y _ => by rw [blk0 m c t y, blk1 m c t y, blk2 m c t y]
  have h2 : (∑ i : S1x1024x1024.Idx, weight (iblk m c 2 t i)) = slabCount (argM m c) (pt t) :=
    Finset.sum_congr rfl fun y _ => by rw [blk2 m c t y]
  rw [h1, h2]

/-- WHAT POINT t WRITES BACK is block t of the packed array. -/
theorem flushed_eq (c : Dev nD) (t : Fin cfg0.N) :
    (dats m 0 c).flushed 3 t
      = ((cfg0.win 3).blk t).view.read (Elt Ideal) (packed (argX m c) (argT m c) (argM m c)) := by
  show (cfg0.win 3).cut (grid0.coords t) ((dats m 0 c).after 3 t) = _
  rw [after0_3]
  unfold out0_3
  rw [View.canon_unit_zero hz]
  simp only [View.ld_unit_zero (S := S1x1024x1024) hz]
  funext j
  show k0_pay1 (F := Ideal) (iblk m c 0 t) (iblk m c 1 t) (iblk m c 2 t) j
      = packed (argX m c) (argT m c) (argM m c) (((cfg0.win 3).blk t).view.emb j)
  rw [emb3 t j]
  exact pay_at_point m c t j

/-- An index of the output array is in point t's block iff each coordinate is in the block's range on its axis. -/
theorem mem_blk3 (t : Fin cfg0.N) (i : S16x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v3).slice (win0_3.rect t)).set ↔ _
  rw [View.set_slice_whole, Rect.mem_set_unit]
  exact Iff.rfl

/-- The sixteen blocks tile the output array: index (b, r, l) is in block b. -/
theorem cover3 (i : S16x8x128.Idx) :
    ∃ t : Fin cfg0.N, (cfg0.win 3).flush t = true ∧ i ∈ ((cfg0.win 3).blk t).view.set := by
  have hi0 : (i 0).val < 16 := (i 0).isLt
  have hi1 : (i 1).val < 8 := (i 1).isLt
  have hi2 : (i 2).val < 128 := (i 2).isLt
  refine ⟨⟨(i 0).val, Nat.lt_of_lt_of_eq hi0 N_0.symm⟩, flush0_3 _, ?_⟩
  obtain ⟨-, -, -, -, -, -, -, -, -, e0, e1, e2⟩ := idx_facts ⟨(i 0).val, Nat.lt_of_lt_of_eq hi0 N_0.symm⟩
  have e0' : win0_3.index ⟨(i 0).val, Nat.lt_of_lt_of_eq hi0 N_0.symm⟩ (0 : Fin 3) = (i 0).val := e0
  rw [mem_blk3]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 8 ≤ (i 1).val ∧ (i 1).val < win0_3.index _ (1 : Fin 3) * 8 + 8; omega
  | ⟨2, _⟩ => show win0_3.index _ (2 : Fin 3) * 128 ≤ (i 2).val ∧ (i 2).val < win0_3.index _ (2 : Fin 3) * 128 + 128; omega

/-- THE OUTPUT ARRAY after the region is the packed array. -/
theorem final (c : Dev nD) : (dats m 0 c).arrAt 3 cfg0.N = packed (argX m c) (argT m c) (argM m c) :=
  (dats m 0 c).arrAt_eq_of_cover 3 (packed (argX m c) (argT m c) (argM m c)) (fun t _ => flushed_eq m c t) cover3

/-! ## The host operations after the region -/

/-- Rows 0 and 1 of the packed array hold the slab's total and the slab's count. -/
theorem packed_row0 (X T : Full.Idx → EReal) (M : Full.Idx → BitVec 32) (b : Fin 16) (l : Fin 128) :
    packed X T M (ix3 b (0 : Fin 8) l) = slabTotal X T M b := rows_zero _ _ _
theorem packed_row1 (X T : Full.Idx → EReal) (M : Full.Idx → BitVec 32) (b : Fin 16) (l : Fin 128) :
    packed X T M (ix3 b (1 : Fin 8) l) = slabCount M b := rows_one _ _ _

/-- A host sum of sixteen numbers into the rank-0 result, from the zero pattern: zero plus their sum. -/
theorem reduce16 (y : FVec Ideal S16 .f32) (i : S_.Idx) :
    Host.reduceAdd y (constant S_ .f32 0x00000000#32) reducesTo_S16_S_d0 h_S_ i = zero + ∑ b : Batch.Idx, y b := by
  simp only [Host.reduceAdd, Ideal.hostReduceAdd_def]
  exact Ideal.hostReduceAdd_total reducesTo_S16_S_d0 (fun b => b.elim0) y _ i

/-- Column (·, 0, 0) of a [16, 8, 128] array, sliced out and flattened to sixteen numbers, at b. -/
theorem col0_at (Pk : FVec Ideal S16x8x128 .f32) (b : S16.Idx) :
    shapeCast S16 (extractStridedSlice S16x1x1 ![0, 0, 0] Pk slices_S16x8x128_S16x1x1_0_0_0) shapeCasts_S16x1x1_S16 b
      = Pk (ix3 (b 0) (0 : Fin 8) (0 : Fin 128)) := by
  refine (shapeCast_apply _ shapeCasts_S16x1x1_S16 b (ix3 (b 0) (0 : Fin 1) (0 : Fin 1)) ?_).trans ?_
  · rw [Shape.rowMajor_val_three, Shape.rowMajor_val_one]
    show ((b 0).val * 1 + 0) * 1 + 0 = (b 0).val
    omega
  · refine extractStridedSlice_apply ![0, 0, 0] Pk _ (ix3 (b 0) (0 : Fin 1) (0 : Fin 1)) (ix3 (b 0) (0 : Fin 8) (0 : Fin 128)) ?_
    intro a
    match a with
    | ⟨0, _⟩ => show (b 0).val = 0 + (b 0).val; omega
    | ⟨1, _⟩ => rfl
    | ⟨2, _⟩ => rfl
/-- Column (·, 1, 0) likewise. -/
theorem col1_at (Pk : FVec Ideal S16x8x128 .f32) (b : S16.Idx) :
    shapeCast S16 (extractStridedSlice S16x1x1 ![0, 1, 0] Pk slices_S16x8x128_S16x1x1_0_1_0) shapeCasts_S16x1x1_S16 b
      = Pk (ix3 (b 0) (1 : Fin 8) (0 : Fin 128)) := by
  refine (shapeCast_apply _ shapeCasts_S16x1x1_S16 b (ix3 (b 0) (0 : Fin 1) (0 : Fin 1)) ?_).trans ?_
  · rw [Shape.rowMajor_val_three, Shape.rowMajor_val_one]
    show ((b 0).val * 1 + 0) * 1 + 0 = (b 0).val
    omega
  · refine extractStridedSlice_apply ![0, 1, 0] Pk _ (ix3 (b 0) (0 : Fin 1) (0 : Fin 1)) (ix3 (b 0) (1 : Fin 8) (0 : Fin 128)) ?_
    intro a
    match a with
    | ⟨0, _⟩ => show (b 0).val = 0 + (b 0).val; omega
    | ⟨1, _⟩ => rfl
    | ⟨2, _⟩ => rfl

/-- The eleven host operations after the region, on any [16, 8, 128] array: the mean from the sum of column
    (·, 0, 0) and the sum of column (·, 1, 0). -/
theorem tail_value (Pk : FVec Ideal S16x8x128 .f32) :
    Host.divf
        (Host.reduceAdd (shapeCast S16 (extractStridedSlice S16x1x1 ![0, 0, 0] Pk slices_S16x8x128_S16x1x1_0_0_0) shapeCasts_S16x1x1_S16)
          (constant S_ .f32 0x00000000#32) reducesTo_S16_S_d0 h_S_)
        (maximumf
          (Host.reduceAdd (shapeCast S16 (extractStridedSlice S16x1x1 ![0, 1, 0] Pk slices_S16x8x128_S16x1x1_0_1_0) shapeCasts_S16x1x1_S16)
            (constant S_ .f32 0x00000000#32) reducesTo_S16_S_d0 h_S_)
          (constant S_ .f32 0x3F800000#32))
      = fun _ => mean (∑ b : Batch.Idx, Pk (ix3 (b 0) (0 : Fin 8) (0 : Fin 128))) (∑ b : Batch.Idx, Pk (ix3 (b 0) (1 : Fin 8) (0 : Fin 128))) := by
  funext i
  rw [show ∀ A B : FVec Ideal S_ .f32, Host.divf A B i = Ideal.div (A i) (B i) from fun _ _ => rfl,
    maximumf_apply, reduce16, reduce16,
    Finset.sum_congr rfl (fun b _ => col0_at Pk b), Finset.sum_congr rfl (fun b _ => col1_at Pk b)]
  rfl

/-- The result buffer after the host operations: the masked mean of the arguments. -/
theorem tail (c : Dev nD) :
    Pipeline.afterTail₀ cfgs (dats m) 0 (V0 m) [hostOps1] c main_v11
      = fun _ => result (argX m c) (argT m c) (argM m c) := by
  unfold Pipeline.afterTail₀
  show StableHlo.after hostOps1 _ (Proc.devRef .tc main_v11) = _
  after_results
  have hW : Pipeline.withArrays (cfgs 0).spec c (V0 m c) (fun w => (dats m 0 c).arrAt w (cfgs 0).N) (Proc.devRef .tc main_v3)
      = packed (argX m c) (argT m c) (argM m c) :=
    (Pipeline.withArrays_arr spec0 launch0.win.arr_inj c _ _ 3).trans (final m c)
  rw [hW]
  refine (tail_value (packed (argX m c) (argT m c) (argM m c))).trans ?_
  have hT : (∑ b : Batch.Idx, packed (argX m c) (argT m c) (argM m c) (ix3 (b 0) (0 : Fin 8) (0 : Fin 128)))
      = total (argX m c) (argT m c) (argM m c) :=
    (Finset.sum_congr rfl fun (b : Batch.Idx) _ => packed_row0 (argX m c) (argT m c) (argM m c) (b 0) (0 : Fin 128)).trans
      (sum_slabTotal (argX m c) (argT m c) (argM m c))
  have hC : (∑ b : Batch.Idx, packed (argX m c) (argT m c) (argM m c) (ix3 (b 0) (1 : Fin 8) (0 : Fin 128)))
      = count (argM m c) :=
    (Finset.sum_congr rfl fun (b : Batch.Idx) _ => packed_row1 (argX m c) (argT m c) (argM m c) (b 0) (0 : Fin 128)).trans
      (sum_slabCount (argM m c))
  rw [hT, hC]
  rfl

/-! ## The run -/

/-- Every weakly fair execution of the idealized kernel terminates with the result at the masked mean of the
    argument arrays, and the arguments unchanged. -/
theorem run : θ_run defs (onTc (τ := τ) (main (F := Ideal))) ⟨m, fun _ => 0, ρ⟩ fun r => ∀ c : Dev nD,
      r.2.mem ((c.tc : Thread nD τ).loc main_v11) = (fun _ => result (argX m c) (argT m c) (argM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v11 (Pipeline.mem_restRefs_of main_v11 (by decide) (by decide))).trans (tail m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KernelValue

end
-- ==== Proof.lean ====
/-
  The certificate: a masked mean of a pointwise loss, computed slab by slab, equals the same mean computed at once.

  Both programs take logits x and targets t (floats) and an integer mask w, all of shape [16, 1, 1024, 1024], and return
      Σ loss(x, t)·w  /  max (Σ w) 1,      loss(x, t) = max x 0 − x·t + log (1 + exp (−|x|)),
  the sums over every index. The reference sums all four axes in one host reduction. The kernel views the arguments as
  [16, 1024, 1024], sums each of the sixteen [1024, 1024] slabs in one grid step (the slab's total and the slab's count,
  written to rows 0 and 1 of a [1, 8, 128] tile), and the host adds the sixteen totals and the sixteen counts.

  On the extended reals every operation of the two programs is the same function (the host's |·|, −·, exp and
  log (1 + ·) are the kernel's; the kernel's 0 − |x| is −|x|), the constants 0 and 1 are the same bit patterns on both
  sides, and the only difference is the grouping of the two sums, which commutativity and associativity of addition
  settle (`MaskedMean.sum_slabs`); finiteness of the inputs is not used. So both runs end with the result at
  `MaskedMean.result` of the three argument arrays:
    the reference's, by its run read back operation by operation (`RefValue.result_eq`);
    the kernel's, by reading the region's output array block by block and then the host operations after the region
    (`KernelValue.run`).
  The three frame conjuncts are the programs' runs with the values dropped, and the idealization rewrote nothing,
  so its conjunct is `True`.
-/
import proofs.«412234_j9723805958292_3_alg».proof.Defs
import proofs.«412234_j9723805958292_3_alg».proof.Proof.Gen.Kernel
import proofs.«412234_j9723805958292_3_alg».proof.Proof.Gen.Kernel.Skeleton
import proofs.«412234_j9723805958292_3_alg».proof.Proof.Gen.Kernel.Launch
import proofs.«412234_j9723805958292_3_alg».proof.Proof.Gen.Kernel.Points
import proofs.«412234_j9723805958292_3_alg».proof.Proof.Gen.Kernel.Frame
import proofs.«412234_j9723805958292_3_alg».proof.Proof.Gen.KernelIdeal
import proofs.«412234_j9723805958292_3_alg».proof.Proof.Gen.KernelIdeal.Skeleton
import proofs.«412234_j9723805958292_3_alg».proof.Proof.Gen.KernelIdeal.Launch
import proofs.«412234_j9723805958292_3_alg».proof.Proof.Gen.KernelIdeal.Points
import proofs.«412234_j9723805958292_3_alg».proof.Proof.Gen.KernelIdeal.Frame
import proofs.«412234_j9723805958292_3_alg».proof.Proof.Gen.ReferenceIdeal
import proofs.«412234_j9723805958292_3_alg».proof.Proof.Gen.ReferenceIdeal.Run
import proofs.«412234_j9723805958292_3_alg».proof.Proof.Gen.Pre_finite_inputs
import proofs.«412234_j9723805958292_3_alg».proof.Proof.MaskedMean
import proofs.«412234_j9723805958292_3_alg».proof.Proof.RefValue
import proofs.«412234_j9723805958292_3_alg».proof.Proof.KernelValue
import Idealize.ShloMosaic.Adequacy
import Idealize.ShloMosaic.Init

noncomputable section

namespace Cert.Proof

open Idealize.ShloMosaic Idealize.SL.Sem Cert.MaskedMean

/-- The word-level kernel and the idealized kernel run, without a fault, and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both idealized programs end with the result at the masked mean
    of those arguments. -/
theorem algebraic : Cert.algebraic_KernelIdeal_ReferenceIdeal := by
  intro m ρ m' ρ' _ hagree
  refine ⟨fun c _ => result (Cert.KernelIdeal.KernelValue.argX m c) (Cert.KernelIdeal.KernelValue.argT m c)
      (Cert.KernelIdeal.KernelValue.argM m c), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
